-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x32000 : Shape := ⟨2, ![4096, 32000]⟩
abbrev S_ : Shape := ⟨0, ![]⟩

class Facts : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel

variable [Facts]

def fn {F : FTy → Type} [FloatOps F] (main_arg0 : FVec F S4096x32000 .f32) (main_arg1 : FVec F S4096x32000 .f32) : IVec S_ 1 :=
  let main_v0 : FVec F S4096x32000 .f32 := Host.absf main_arg0
  let main_cst : FVec F S_ .f32 := constant S_ .f32 0x7F800000#32
  let main_v1 : FVec F S4096x32000 .f32 := broadcastInDim S4096x32000 ![] bcast_S_S4096x32000 main_cst
  let main_v2 : IVec S4096x32000 1 := cmpf .olt main_v0 main_v1
  let main_c : IVec S_ 1 := constantI S_ 1 1#1
  let main_v3 : IVec S_ 1 := (fun x v => Host.reduce IntOp.andi x v reducesTo_S4096x32000_S_d0_1 h_S_) main_v2 main_c
  let main_v4 : FVec F S4096x32000 .f32 := Host.absf main_arg1
  let main_cst_0 : FVec F S_ .f32 := constant S_ .f32 0x7F800000#32
  let main_v5 : FVec F S4096x32000 .f32 := broadcastInDim S4096x32000 ![] bcast_S_S4096x32000 main_cst_0
  let main_v6 : IVec S4096x32000 1 := cmpf .olt main_v4 main_v5
  let main_c_1 : IVec S_ 1 := constantI S_ 1 1#1
  let main_v7 : IVec S_ 1 := (fun x v => Host.reduce IntOp.andi x v reducesTo_S4096x32000_S_d0_1 h_S_) main_v6 main_c_1
  let main_v8 : IVec S_ 1 := andi main_v3 main_v7
  main_v8
-- ==== Kernel.lean ====
abbrev S4096x32000 : Shape := ⟨2, ![4096, 32000]⟩
abbrev S1x1 : Shape := ⟨2, ![1, 1]⟩
abbrev S512x1280 : Shape := ⟨2, ![512, 1280]⟩
abbrev S512 : Shape := ⟨1, ![512]⟩
abbrev S512x1 : Shape := ⟨2, ![512, 1]⟩
abbrev S1 : Shape := ⟨1, ![1]⟩
abbrev S_ : Shape := ⟨0, ![]⟩

abbrev nBuf : Space → Nat
  | .hbm => 6
  | .vmem => 6
  | .smem => 0
  | _ => 0

abbrev bufTy : (tb : Table) → Fin (tcTables nBuf tb) → BufTy
  | .hbm, ⟨0, _⟩ => ⟨S4096x32000, .f32⟩
  | .hbm, ⟨1, _⟩ => ⟨S4096x32000, .f32⟩
  | .hbm, ⟨2, _⟩ => ⟨S1x1, .f32⟩
  | .hbm, ⟨3, _⟩ => ⟨S_, .f32⟩
  | .hbm, ⟨4, _⟩ => ⟨S_, .f32⟩
  | .hbm, ⟨5, _⟩ => ⟨S_, .f32⟩
  | .local _ .vmem, ⟨0, _⟩ => ⟨S512x1280, .f32⟩
  | .local _ .vmem, ⟨1, _⟩ => ⟨S512x1280, .f32⟩
  | .local _ .vmem, ⟨2, _⟩ => ⟨S512x1280, .f32⟩
  | .local _ .vmem, ⟨3, _⟩ => ⟨S512x1280, .f32⟩
  | .local _ .vmem, ⟨4, _⟩ => ⟨S1x1, .f32⟩
  | .local _ .vmem, ⟨5, _⟩ => ⟨S1x1, .f32⟩
  | _, _ => ⟨S4096x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![8, 25], ![false, false]⟩

def k0_cond2 (i : grid0.Coords) : BitVec 1 :=
  let arg0 : BitVec 32 := BitVec.ofNat 32 (i 0).val
  let c7_i32 : BitVec 32 := 7#32
  let v33 : BitVec 1 := Scalar.cmpi .eq arg0 c7_i32
  let arg1 : BitVec 32 := BitVec.ofNat 32 (i 1).val
  let c24_i32 : BitVec 32 := 24#32
  let v34 : BitVec 1 := Scalar.cmpi .eq arg1 c24_i32
  let v35 : BitVec 1 := Scalar.andi v33 v34
  let v36 : BitVec 32 := Scalar.extui v35
  let c0_i32_14 : BitVec 32 := 0#32
  let v37 : BitVec 1 := Scalar.cmpi .ne v36 c0_i32_14
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1280 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x1280_S512x1280_0_0 : ∀ a, (![0, 0] : Fin 2 → Nat) a + S512x1280.size a ≤ S512x1280.size a
  h_S512x1280 : 0 < S512x1280.numel
  reduces_S512x1280_S512 : S512x1280.Reduces [1] S512
  shapeCasts_S512_S512x1 : S512.ShapeCasts S512x1
  reduces_S512x1_S1 : S512x1.Reduces [0] S1
  shapeCasts_S1_S1x1 : S1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1280.size a ≤ S4096x32000.size a
  hwx0_0 : ∀ i : grid0.Coords, EltTy.bits .f32 = 32 ∨ (Rect.block (s := S4096x32000) S512x1280.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1280.size a ≤ S4096x32000.size a
  hwx0_1 : ∀ i : grid0.Coords, EltTy.bits .f32 = 32 ∨ (Rect.block (s := S4096x32000) S512x1280.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

abbrev win0_0 : Pipeline.Window sig grid0 :=
  Pipeline.Window.ofSpec (Memref.whole main_arg0) S512x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4096x32000 : Shape := ⟨2, ![4096, 32000]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S4096x32000, .f32⟩
  | .hbm, ⟨1, _⟩ => ⟨S4096x32000, .f32⟩
  | .hbm, ⟨2, _⟩ => ⟨S4096x32000, .f32⟩
  | .hbm, ⟨3, _⟩ => ⟨S4096x32000, .f32⟩
  | .hbm, ⟨4, _⟩ => ⟨S_, .f32⟩
  | .hbm, ⟨5, _⟩ => ⟨S4096x32000, .f32⟩
  | .hbm, ⟨6, _⟩ => ⟨S4096x32000, .f32⟩
  | .hbm, ⟨7, _⟩ => ⟨S_, .f32⟩
  | .hbm, ⟨8, _⟩ => ⟨S4096x32000, .f32⟩
  | .hbm, ⟨9, _⟩ => ⟨S4096x32000, .f32⟩
  | .hbm, ⟨10, _⟩ => ⟨S4096x32000, .f32⟩
  | .hbm, ⟨11, _⟩ => ⟨S4096x32000, .f32⟩
  | .hbm, ⟨12, _⟩ => ⟨S_, .f32⟩
  | .hbm, ⟨13, _⟩ => ⟨S4096x32000, .f32⟩
  | .hbm, ⟨14, _⟩ => ⟨S4096x32000, .f32⟩
  | .hbm, ⟨15, _⟩ => ⟨S4096x32000, .f32⟩
  | .hbm, ⟨16, _⟩ => ⟨S4096x32000, .f32⟩
  | .hbm, ⟨17, _⟩ => ⟨S_, .f32⟩
  | .hbm, ⟨18, _⟩ => ⟨S4096x32000, .f32⟩
  | .hbm, ⟨19, _⟩ => ⟨S4096x32000, .f32⟩
  | .hbm, ⟨20, _⟩ => ⟨S4096x32000, .f32⟩
  | .hbm, ⟨21, _⟩ => ⟨S4096x32000, .f32⟩
  | .hbm, ⟨22, _⟩ => ⟨S4096x32000, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | _, _ => ⟨S4096x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S4096x32000 : S_.BroadcastsInDim S4096x32000 (![] : Fin 0 → Fin S4096x32000.rank)
  reducesTo_S4096x32000_S_d0_1 : S4096x32000.ReducesTo [0, 1] S_
  h_S_ : 0 < S_.numel

variable [Facts₀]

class Facts : Prop extends Facts₀ where

variable [Facts]
-- ==== Proof.JsdSum.lean ====
/-
  The mathematics of the Jensen–Shannon reduction, with no program in sight.

  For extended reals `x, y` the summand is
    `term x y = (½·eˣ)·(x − log(½·eˣ + ½·eʸ)) + (½·eʸ)·(y − log(½·eˣ + ½·eʸ))`,
  where `½` is the value of the word `0x3F000000`. The 4096 × 32000 array is cut into 8 × 25 blocks of
  512 × 1280; block `t` (row-major, `t = 25·a + b`) holds rows `512·a + r` and columns `1280·b + k`. Every
  entry of the array lies in exactly one block, so the sum of the 200 block sums is the sum over the whole array:
  a re-indexing of a finite sum in a commutative monoid, with no appeal to finiteness of the summands.
-/
import Idealize.ShloMosaic.Lib.ValueIdx
import Idealize.ShloMosaic.PureOps.Ideal.Laws

noncomputable section

namespace Cert.Jsd

open Idealize.ShloMosaic Idealize.ShloMosaic.ValueIdx

/-- The value of the word `0x3F000000`: one half. It is never evaluated; both programs use the same word. -/
abbrev half : EReal := Ideal.ofBits .f32 0x3F000000#32

/-- One entry's contribution to the divergence, from the two log-probabilities `x` and `y`. -/
def term (x y : EReal) : EReal :=
  half * Ideal.exp x * (x - Ideal.log (half * Ideal.exp x + half * Ideal.exp y))
    + half * Ideal.exp y * (y - Ideal.log (half * Ideal.exp x + half * Ideal.exp y))

/-- The last step of both programs: a scalar divided by the value of the word `0x45800000`. Both sides end with this
    same function of the total, so it is never opened. -/
def mean (T : FVec Ideal ⟨0, ![]⟩ .f32) : FVec Ideal ⟨0, ![]⟩ .f32 :=
  Host.divf T (constant (F := Ideal) ⟨0, ![]⟩ .f32 0x45800000#32)

/-! ## The tiling -/

/-- A row of the array is row `r` of block row `a`: `i = 512·a + r`. -/
def rowSplit : Fin 8 × Fin 512 ≃ Fin 4096 where
  toFun p := ⟨512 * p.1.val + p.2.val, by have := p.1.isLt; have := p.2.isLt; omega⟩
  invFun i := (⟨i.val / 512, by have := i.isLt; omega⟩, ⟨i.val % 512, by omega⟩)
  left_inv p := by
    rcases p with ⟨⟨a, ha⟩, ⟨r, hr⟩⟩
    refine Prod.ext (Fin.ext ?_) (Fin.ext ?_)
    · show (512 * a + r) / 512 = a
      omega
    · show (512 * a + r) % 512 = r
      omega
  right_inv i := Fin.ext (by
    show 512 * (i.val / 512) + i.val % 512 = i.val
    omega)

/-- A column of the array is column `k` of block column `b`: `j = 1280·b + k`. -/
def colSplit : Fin 25 × Fin 1280 ≃ Fin 32000 where
  toFun p := ⟨1280 * p.1.val + p.2.val, by have := p.1.isLt; have := p.2.isLt; omega⟩
  invFun j := (⟨j.val / 1280, by have := j.isLt; omega⟩, ⟨j.val % 1280, by omega⟩)
  left_inv p := by
    rcases p with ⟨⟨b, hb⟩, ⟨k, hk⟩⟩
    refine Prod.ext (Fin.ext ?_) (Fin.ext ?_)
    · show (1280 * b + k) / 1280 = b
      omega
    · show (1280 * b + k) % 1280 = k
      omega
  right_inv j := Fin.ext (by
    show 1280 * (j.val / 1280) + j.val % 1280 = j.val
    omega)

/-- A block, counted row-major, is block column `b` of block row `a`: `t = 25·a + b`. -/
def blockSplit : Fin 8 × Fin 25 ≃ Fin 200 where
  toFun p := ⟨25 * p.1.val + p.2.val, by have := p.1.isLt; have := p.2.isLt; omega⟩
  invFun t := (⟨t.val / 25, by have := t.isLt; omega⟩, ⟨t.val % 25, by omega⟩)
  left_inv p := by
    rcases p with ⟨⟨a, ha⟩, ⟨b, hb⟩⟩
    refine Prod.ext (Fin.ext ?_) (Fin.ext ?_)
    · show (25 * a + b) / 25 = a
      omega
    · show (25 * a + b) % 25 = b
      omega
  right_inv t := Fin.ext (by
    show 25 * (t.val / 25) + t.val % 25 = t.val
    omega)

/-- The array row that row `r` of block `t` is. -/
def blockRow (t : Fin 200) (r : Fin 512) : Fin 4096 :=
  ⟨512 * (t.val / 25) + r.val, by have := t.isLt; have := r.isLt; omega⟩

/-- The array column that column `k` of block `t` is. -/
def blockCol (t : Fin 200) (k : Fin 1280) : Fin 32000 :=
  ⟨1280 * (t.val % 25) + k.val, by have := t.isLt; have := k.isLt; omega⟩

theorem blockRow_split (a : Fin 8) (b : Fin 25) (r : Fin 512) : blockRow (blockSplit (a, b)) r = rowSplit (a, r) :=
  Fin.ext (by
    show 512 * ((25 * a.val + b.val) / 25) + r.val = 512 * a.val + r.val
    have := b.isLt
    omega)

theorem blockCol_split (a : Fin 8) (b : Fin 25) (k : Fin 1280) : blockCol (blockSplit (a, b)) k = colSplit (b, k) :=
  Fin.ext (by
    show 1280 * ((25 * a.val + b.val) % 25) + k.val = 1280 * b.val + k.val
    have := b.isLt
    omega)

/-- The blocks partition the array: summing each block and then the 200 block sums is summing the array. -/
theorem sum_blocks {M : Type*} [AddCommMonoid M] (f : Fin 4096 → Fin 32000 → M) :
    ∑ t : Fin 200, ∑ r : Fin 512, ∑ k : Fin 1280, f (blockRow t r) (blockCol t k)
      = ∑ i : Fin 4096, ∑ j : Fin 32000, f i j := by
  calc ∑ t : Fin 200, ∑ r : Fin 512, ∑ k : Fin 1280, f (blockRow t r) (blockCol t k)
      = ∑ a : Fin 8, ∑ b : Fin 25, ∑ r : Fin 512, ∑ k : Fin 1280, f (rowSplit (a, r)) (colSplit (b, k)) := by
        rw [← blockSplit.sum_comp, Fintype.sum_prod_type]
        refine Finset.sum_congr rfl fun a _ => Finset.sum_congr rfl fun b _ =>
          Finset.sum_congr rfl fun r _ => Finset.sum_congr rfl fun k _ => ?_
        rw [blockRow_split, blockCol_split]
    _ = ∑ a : Fin 8, ∑ r : Fin 512, ∑ b : Fin 25, ∑ k : Fin 1280, f (rowSplit (a, r)) (colSplit (b, k)) :=
        Finset.sum_congr rfl fun a _ => Finset.sum_comm
    _ = ∑ i : Fin 4096, ∑ j : Fin 32000, f i j := by
        rw [← rowSplit.sum_comp (fun i => ∑ j : Fin 32000, f i j), Fintype.sum_prod_type]
        refine Finset.sum_congr rfl fun a _ => Finset.sum_congr rfl fun r _ => ?_
        rw [← colSplit.sum_comp (fun j => f (rowSplit (a, r)) j), Fintype.sum_prod_type]

/-! ## Running sums -/

/-- A sum over `Fin n` of a function given on the naturals below `n` is the sum over `range n` of its extension by zero. -/
theorem sum_fin_eq_range {M : Type*} [AddCommMonoid M] (n : ℕ) (g : (i : ℕ) → i < n → M) :
    ∑ t : Fin n, g t.val t.isLt = ∑ i ∈ Finset.range n, (if h : i < n then g i h else 0) := by
  rw [Finset.sum_range]
  exact Finset.sum_congr rfl fun t _ => (dif_pos t.isLt).symm

end Cert.Jsd

end
-- ==== Proof.KernelBody.lean ====
/-
  What the kernel's body leaves in its carried accumulator, and what that is as a number.

  The body at one grid point loads the two 512 × 1280 blocks `x`, `y`, forms the summand `term (x r k) (y r k)` entry by
  entry, sums it along the lanes, then along the sublanes, and adds the block sum to the 1 × 1 accumulator; at the
  first point the accumulator is first set to zero, and at the last point it is copied to the output block. So
  whatever case a point is in, the accumulator ends at `s + ∑ r, ∑ k, term (x r k) (y r k)` where `s` is what it held
  before (zero at the first point), and at the last point the output block holds the same number.
-/
import proofs.«102382_j69707319214415_1_alg».proof.Proof.JsdSum
import proofs.«102382_j69707319214415_1_alg».proof.Proof.Gen.KernelIdeal.Frame
import Idealize.ShloMosaic.Lib.Pipeline.Value
import Idealize.ShloMosaic.Lib.ValueIdx
import Idealize.ShloMosaic.Lib.Tactic
import Idealize.ShloMosaic.PureOps.Ideal.Laws

noncomputable section

open Idealize.ShloMosaic Idealize.ShloMosaic.TcCoe Idealize.SL.Sem Idealize.ShloMosaic.ValueIdx

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-! ## The three cases' pieces are the body's payloads -/

/-- A middle point: the accumulator, holding `s`, ends at the update's payload of the two blocks and `s`. -/
theorem acc_middle (c : Dev nD) (i : grid0.Coords) (a2 : Memref sig .tc .vmem S512x1280 .f32) (h2 : a2.IsWhole)
    (a3 : Memref sig .tc .vmem S512x1280 .f32) (h3 : a3.IsWhole) (a4 : Memref sig .tc .vmem S1x1 .f32) (h4 : a4.IsWhole)
    (a5 : Memref sig .tc .vmem S1x1 .f32) (h5 : a5.IsWhole) (hc0 : ¬cond0_0 i) (hc1 : ¬cond0_1 i)
    (x y : Vec F S512x1280 .f32) (s : Vec F S1x1 .f32) :
    sout0_B_0 c i a2 h2 a3 h3 a4 h4 a5 h5 hc0 hc1 x y s = k0_pay2 x y s := by
  unfold sout0_B_0
  rw [View.read_writes_eq_canon _ _ _ (scover0_B_0 c i a2 h2 a3 h3 a4 h4 a5 h5 hc0 hc1 x y s)]
  unfold kernelRun0_B
  dsimp only
  sl_unfold_words
  rw [View.canon_unit_zero hz]
  simp only [View.readAt_eq_ld, h2.read_unread, h3.read_unread, h5.read_unread, View.ld_unit_zero (S := S512x1280) hz,
    View.ld_unit_zero (S := S1x1) hz]

/-- The first point: the accumulator is set to the zero payload and then updated from it. -/
theorem acc_first (c : Dev nD) (i : grid0.Coords) (a2 : Memref sig .tc .vmem S512x1280 .f32) (h2 : a2.IsWhole)
    (a3 : Memref sig .tc .vmem S512x1280 .f32) (h3 : a3.IsWhole) (a4 : Memref sig .tc .vmem S1x1 .f32) (h4 : a4.IsWhole)
    (a5 : Memref sig .tc .vmem S1x1 .f32) (h5 : a5.IsWhole) (hc0 : cond0_0 i) (hc1 : ¬cond0_1 i)
    (x y : Vec F S512x1280 .f32) :
    sout0_A_0 c i a2 h2 a3 h3 a4 h4 a5 h5 hc0 hc1 x y = k0_pay2 x y (k0_pay1 (F := F)) := by
  unfold sout0_A_0
  rw [View.read_writes_eq_canon _ _ _ (scover0_A_0 c i a2 h2 a3 h3 a4 h4 a5 h5 hc0 hc1 x y)]
  unfold kernelRun0_A
  dsimp only
  sl_unfold_words
  rw [View.canon_cons_unit_zero (S := S1x1) hz, View.readCov_unit_zero (S := S1x1) _ hz]
  simp only [View.readAt_eq_ld, h2.read_unread, h3.read_unread, View.ld_unit_zero (S := S512x1280) hz,
    View.ld_unit_zero (S := S1x1) hz]

/-- The last point updates the accumulator like a middle point … -/
theorem acc_last (c : Dev nD) (i : grid0.Coords) (a2 : Memref sig .tc .vmem S512x1280 .f32) (h2 : a2.IsWhole)
    (a3 : Memref sig .tc .vmem S512x1280 .f32) (h3 : a3.IsWhole) (a4 : Memref sig .tc .vmem S1x1 .f32) (h4 : a4.IsWhole)
    (a5 : Memref sig .tc .vmem S1x1 .f32) (h5 : a5.IsWhole) (hc0 : ¬cond0_0 i) (hc1 : cond0_1 i)
    (x y : Vec F S512x1280 .f32) (s : Vec F S1x1 .f32) :
    sout0_C_0 c i a2 h2 a3 h3 a4 h4 a5 h5 hc0 hc1 x y s = k0_pay2 x y s := by
  unfold sout0_C_0
  rw [View.read_writes_eq_canon _ _ _ (scover0_C_0 c i a2 h2 a3 h3 a4 h4 a5 h5 hc0 hc1 x y s)]
  unfold kernelRun0_C
  dsimp only
  sl_unfold_words
  rw [View.canon_unit_zero hz]
  simp only [View.readAt_eq_ld, h2.read_unread, h3.read_unread, h5.read_unread, View.ld_unit_zero (S := S512x1280) hz,
    View.ld_unit_zero (S := S1x1) hz]

/-- … and copies the updated accumulator into the output block. -/
theorem out_last (c : Dev nD) (i : grid0.Coords) (a2 : Memref sig .tc .vmem S512x1280 .f32) (h2 : a2.IsWhole)
    (a3 : Memref sig .tc .vmem S512x1280 .f32) (h3 : a3.IsWhole) (a4 : Memref sig .tc .vmem S1x1 .f32) (h4 : a4.IsWhole)
    (a5 : Memref sig .tc .vmem S1x1 .f32) (h5 : a5.IsWhole) (hc0 : ¬cond0_0 i) (hc1 : cond0_1 i)
    (x y : Vec F S512x1280 .f32) (s : Vec F S1x1 .f32) :
    out0_C_2 c i a2 h2 a3 h3 a4 h4 a5 h5 hc0 hc1 x y s = k0_pay2 x y s := by
  unfold out0_C_2
  rw [View.read_writes_eq_canon _ _ _ (cover0_C_2 c i a2 h2 a3 h3 a4 h4 a5 h5 hc0 hc1 x y s)]
  unfold kernelRun0_C
  dsimp only
  sl_unfold_words
  rw [View.canon_unit_zero hz, View.readCov_unit_zero (S := S1x1) _ hz]
  simp only [View.readAt_eq_ld, h2.read_unread, h3.read_unread, h5.read_unread, View.ld_unit_zero (S := S512x1280) hz,
    View.ld_unit_zero (S := S1x1) hz]

/-! ## The payloads as numbers, at the ideal instance -/

/-- The reset stores zero. -/
theorem zero_apply (j : S1x1.Idx) : k0_pay1 (F := Ideal) j = 0 := by
  unfold k0_pay1
  rw [shapeCast_self]
  exact Ideal.ofBits_zero_f32

/-- A lane sum of a 512 × 1280 block, at row `r`: the sum over the 1280 columns. -/
theorem laneSum_apply (v : FVec Ideal S512x1280 .f32) (r : Fin 512) :
    multiReduction (F := Ideal) .add [1] S512 v 0x00000000#32 reduces_S512x1280_S512 (.inl rfl) rfl (ix1 r)
      = ∑ k : Fin 1280, v (ix2 r k) :=
  (Ideal.multiReduction_add_single v 0x00000000#32 reduces_S512x1280_S512 (.inl rfl) rfl (ix1 r)).trans
    (Finset.sum_congr rfl fun k _ => congrArg v (funext fun a => by
      match a with
      | ⟨0, _⟩ => rfl
      | ⟨1, _⟩ => rfl))

/-- A sublane sum of a 512 × 1 column: the sum over the 512 rows. -/
theorem sublaneSum_apply (v : FVec Ideal S512x1 .f32) (j : S1.Idx) :
    multiReduction (F := Ideal) .add [0] S1 v 0x00000000#32 reduces_S512x1_S1 (.inl rfl) rfl j
      = ∑ r : Fin 512, v (ix2 r (0 : Fin 1)) :=
  (Ideal.multiReduction_add_single v 0x00000000#32 reduces_S512x1_S1 (.inl rfl) rfl j).trans
    (Finset.sum_congr rfl fun r _ => congrArg v (funext fun a => by
      match a with
      | ⟨0, _⟩ => rfl
      | ⟨1, _⟩ => exact Fin.ext (by have h0 : (j 0).val < 1 := (j 0).isLt; show (j 0).val = 0; omega)))

/-- A column of 512 read as a 512 × 1 array. -/
theorem column_apply (v : FVec Ideal S512 .f32) (r : Fin 512) :
    shapeCast S512x1 v shapeCasts_S512_S512x1 (ix2 r (0 : Fin 1)) = v (ix1 r) :=
  shapeCast_apply v shapeCasts_S512_S512x1 _ _ (by
    rw [Shape.rowMajor_val_two, Shape.rowMajor_val_one]
    show r.val = r.val * 1 + 0
    omega)

/-- The update's payload: what the accumulator held plus the block's sum of the summand. -/
theorem update_apply (x y : Vec Ideal S512x1280 .f32) (s : Vec Ideal S1x1 .f32) (j : S1x1.Idx) :
    k0_pay2 (F := Ideal) x y s j = s j + ∑ r : Fin 512, ∑ k : Fin 1280, Cert.Jsd.term (x (ix2 r k)) (y (ix2 r k)) := by
  unfold k0_pay2
  rw [shapeCast_self]
  refine congrArg (s j + ·) ?_
  refine (shapeCast_apply _ shapeCasts_S1_S1x1 j (ix1 (0 : Fin 1)) (by
    rw [Shape.rowMajor_val_two, Shape.rowMajor_val_one]
    have h0 := (j 0).isLt
    have h1 := (j 1).isLt
    show 0 = (j 0).val * 1 + (j 1).val
    have h0' : (j 0).val < 1 := h0
    have h1' : (j 1).val < 1 := h1
    omega)).trans ?_
  refine (sublaneSum_apply _ _).trans ?_
  refine Finset.sum_congr rfl fun r _ => ?_
  refine (column_apply _ r).trans ?_
  refine (laneSum_apply _ r).trans ?_
  rfl

end Cert.KernelIdeal.Body

end
-- ==== Proof.KernelTotal.lean ====
/-
  The kernel's result as one number: the accumulator after grid point `n` is the sum of the block sums of points
  `0 … n`; block `t` of either argument is the 512 × 1280 rectangle at rows `512·(t / 25) + r`, columns
  `1280·(t % 25) + k` of the array; so after the last point the accumulator, and the output block copied from it,
  hold the sum of the summand over the whole 4096 × 32000 array (the blocks partition it: `Cert.Jsd.sum_blocks`).
  The two host lines after the call read that 1 × 1 array as a scalar and divide it by the value of `0x45800000`.
-/
import proofs.«102382_j69707319214415_1_alg».proof.Proof.KernelBody
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.Total

open Cert.KernelIdeal Cert.KernelIdeal.Gen Cert.KernelIdeal.Body Cert.Jsd

variable (m : (ℓ : Loc nD τ sig) → Buf (Elt Ideal) ℓ) (ρ : Dev nD → PrngReg)

/-! ## The arrays and their blocks -/

/-- The two argument arrays as the call finds them. -/
abbrev parr (c : Dev nD) : Vec Ideal S4096x32000 .f32 := V m c main_arg0
abbrev qarr (c : Dev nD) : Vec Ideal S4096x32000 .f32 := V m c main_arg1
/-- Their blocks at grid point `t`. -/
abbrev pblk (c : Dev nD) (t : Fin cfg0.N) : Vec Ideal S512x1280 .f32 := iblk m c 0 t
abbrev qblk (c : Dev nD) (t : Fin cfg0.N) : Vec Ideal S512x1280 .f32 := iblk m c 1 t

/-- Point `t` of the row-major 8 × 25 grid fetches block row `t / 25`, block column `t % 25` of the first argument … -/
theorem index_p : ∀ t : Fin cfg0.N, win0_0.index t (0 : Fin 2) = t.val / 25 ∧ win0_0.index t (1 : Fin 2) = t.val % 25 :=
  (by decide +kernel : ∀ t : Fin grid0.N, win0_0.index t (0 : Fin 2) = t.val / 25 ∧ win0_0.index t (1 : Fin 2) = t.val % 25)
/-- … and of the second. -/
theorem index_q : ∀ t : Fin cfg0.N, win0_1.index t (0 : Fin 2) = t.val / 25 ∧ win0_1.index t (1 : Fin 2) = t.val % 25 :=
  (by decide +kernel : ∀ t : Fin grid0.N, win0_1.index t (0 : Fin 2) = t.val / 25 ∧ win0_1.index t (1 : Fin 2) = t.val % 25)

/-- Entry `(r, k)` of the first argument's block at point `t` is the array's entry at the block's rows and columns. -/
theorem pblk_apply (c : Dev nD) (t : Fin cfg0.N) (r : Fin 512) (k : Fin 1280) :
    pblk m c t (ix2 r k) = parr m c (ix2 (blockRow (t.cast N_0) r) (blockCol (t.cast N_0) k)) := by
  unfold pblk iblk
  rw [View.read_apply]
  show V m c main_arg0 _ = V m c main_arg0 _
  congr 1
  funext a
  apply Fin.ext
  match a with
  | ⟨0, _⟩ =>
    show win0_0.index t 0 * 512 + 1 * r.val = 512 * (t.val / 25) + r.val
    rw [(index_p t).1]; omega
  | ⟨1, _⟩ =>
    show win0_0.index t 1 * 1280 + 1 * k.val = 1280 * (t.val % 25) + k.val
    rw [(index_p t).2]; omega

theorem qblk_apply (c : Dev nD) (t : Fin cfg0.N) (r : Fin 512) (k : Fin 1280) :
    qblk m c t (ix2 r k) = qarr m c (ix2 (blockRow (t.cast N_0) r) (blockCol (t.cast N_0) k)) := by
  unfold qblk iblk
  rw [View.read_apply]
  show V m c main_arg1 _ = V m c main_arg1 _
  congr 1
  funext a
  apply Fin.ext
  match a with
  | ⟨0, _⟩ =>
    show win0_1.index t 0 * 512 + 1 * r.val = 512 * (t.val / 25) + r.val
    rw [(index_q t).1]; omega
  | ⟨1, _⟩ =>
    show win0_1.index t 1 * 1280 + 1 * k.val = 1280 * (t.val % 25) + k.val
    rw [(index_q t).2]; omega

/-! ## The running sum -/

/-- The sum of the summand over the block at point `t`. -/
def blockTerm (c : Dev nD) (t : Fin cfg0.N) : EReal :=
  ∑ r : Fin 512, ∑ k : Fin 1280, term (pblk m c t (ix2 r k)) (qblk m c t (ix2 r k))

/-- The same, as a function of a natural number (zero past the grid), for sums over `Finset.range`. -/
def blockSum (c : Dev nD) (n : ℕ) : EReal := if h : n < cfg0.N then blockTerm m c ⟨n, h⟩ else 0

/-- At the first point the accumulator ends at the first block's sum (zero plus it). -/
theorem acc_at_first (c : Dev nD) (t : Fin cfg0.N) (h0 : t.val % 200 = 0) (j : S1x1.Idx) :
    (outsAt0 m c t.val t.isLt).2 j = blockTerm m c t := by
  have h1 : ¬t.val % 200 = 199 := by omega
  rw [outsAt0_A m c t h0 h1]
  dsimp only
  refine (congrFun (acc_first (F := Ideal) c (grid0.coords t) (ms0_0 t) (hs0_0 t) (ms0_1 t) (hs0_1 t) (ms0_2 t) (hs0_2 t)
    scM0_0 (Memref.isWhole_whole _) ((hcond0_0 t).mpr h0) (fun h => h1 ((hcond0_1 t).mp h)) (pblk m c t) (qblk m c t)) j).trans ?_
  refine (update_apply (pblk m c t) (qblk m c t) (k0_pay1 (F := Ideal)) j).trans ?_
  rw [zero_apply, zero_add]
  rfl

/-- At every later point the accumulator ends at what the point before left plus this block's sum. -/
theorem acc_at_later (c : Dev nD) (t : Fin cfg0.N) (h0 : ¬t.val % 200 = 0) (j : S1x1.Idx) :
    (outsAt0 m c t.val t.isLt).2 j
      = (outsAt0 m c (t.val - 1) (Nat.lt_of_le_of_lt (Nat.sub_le _ _) t.isLt)).2 j + blockTerm m c t := by
  by_cases h1 : t.val % 200 = 199
  · rw [outsAt0_C m c t h0 h1]
    dsimp only
    exact (congrFun (acc_last (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (pblk m c t) (qblk m c t)
      (outsAt0 m c (t.val - 1) (Nat.lt_of_le_of_lt (Nat.sub_le _ _) t.isLt)).2) j).trans
      (update_apply (pblk m c t) (qblk m c t) _ j)
  · rw [outsAt0_B m c t h0 h1]
    dsimp only
    exact (congrFun (acc_middle (F := Ideal) c (grid0.coords t) (ms0_0 t) (hs0_0 t) (ms0_1 t) (hs0_1 t) (ms0_2 t) (hs0_2 t)
      scM0_0 (Memref.isWhole_whole _) (fun h => h0 ((hcond0_0 t).mp h)) (fun h => h1 ((hcond0_1 t).mp h)) (pblk m c t) (qblk m c t)
      (outsAt0 m c (t.val - 1) (Nat.lt_of_le_of_lt (Nat.sub_le _ _) t.isLt)).2) j).trans
      (update_apply (pblk m c t) (qblk m c t) _ j)

/-- At the last point the output block is a copy of the accumulator. -/
theorem out_at_last (c : Dev nD) (t : Fin cfg0.N) (h0 : ¬t.val % 200 = 0) (h1 : t.val % 200 = 199) :
    (outsAt0 m c t.val t.isLt).1 = (outsAt0 m c t.val t.isLt).2 := by
  rw [outsAt0_C m c t h0 h1]
  dsimp only
  exact (out_last (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (pblk m c t) (qblk m c t)
      (outsAt0 m c (t.val - 1) (Nat.lt_of_le_of_lt (Nat.sub_le _ _) t.isLt)).2).trans
    (acc_last (F := Ideal) c (grid0.coords t) (ms0_0 t) (hs0_0 t) (ms0_1 t) (hs0_1 t) (ms0_2 t) (hs0_2 t)
      scM0_0 (Memref.isWhole_whole _) (fun h => h0 ((hcond0_0 t).mp h)) ((hcond0_1 t).mpr h1) (pblk m c t) (qblk m c t)
      (outsAt0 m c (t.val - 1) (Nat.lt_of_le_of_lt (Nat.sub_le _ _) t.isLt)).2).symm

/-- After point `n` the accumulator holds the sum of the block sums of points `0 … n`: by induction on the point. -/
theorem acc_eq (c : Dev nD) : ∀ (n : ℕ) (h : n < cfg0.N) (j : S1x1.Idx),
    (outsAt0 m c n h).2 j = ∑ i ∈ Finset.range (n + 1), blockSum m c i
  | 0, h, j => by
    rw [Finset.sum_range_one]
    unfold blockSum
    rw [dif_pos h]
    exact acc_at_first m c ⟨0, h⟩ rfl j
  | n + 1, h, j => by
    have hN : cfg0.N = 200 := N_0
    have h0 : ¬(⟨n + 1, h⟩ : Fin cfg0.N).val % 200 = 0 := by dsimp only; omega
    rw [Finset.sum_range_succ, ← acc_eq c n (Nat.lt_of_succ_lt h) j]
    refine (acc_at_later m c ⟨n + 1, h⟩ h0 j).trans ?_
    unfold blockSum
    rw [dif_pos h]
    rfl

/-! ## The total -/

/-- The sum of the summand over the whole array. -/
def total (c : Dev nD) : EReal :=
  ∑ i : Fin 4096, ∑ j : Fin 32000, term (parr m c (ix2 i j)) (qarr m c (ix2 i j))

/-- The 200 block sums add up to it: each block is a rectangle of the array and the rectangles partition it. -/
theorem blocks_total (c : Dev nD) : ∑ i ∈ Finset.range cfg0.N, blockSum m c i = total m c := by
  unfold blockSum
  rw [← sum_fin_eq_range cfg0.N (fun i h => blockTerm m c ⟨i, h⟩)]
  unfold total
  rw [← sum_blocks (fun i j => term (parr m c (ix2 i j)) (qarr m c (ix2 i j)))]
  refine Eq.trans ?_ ((finCongr N_0).sum_comp _)
  refine Finset.sum_congr rfl fun t _ => Finset.sum_congr rfl fun r _ => Finset.sum_congr rfl fun k _ => ?_
  rw [pblk_apply, qblk_apply]
  rfl

/-- After the last point the output block holds the total, at its one index. -/
theorem out_total (c : Dev nD) (t : Fin cfg0.N) (h1 : t.val % 200 = 199) (j : S1x1.Idx) :
    (outsAt0 m c t.val t.isLt).1 j = total m c := by
  have hN : cfg0.N = 200 := N_0
  have ht := t.isLt
  have h0 : ¬t.val % 200 = 0 := by omega
  rw [out_at_last m c t h0 h1, acc_eq m c t.val t.isLt j, show t.val + 1 = cfg0.N from by omega]
  exact blocks_total m c

end Cert.KernelIdeal.Total

end
-- ==== Proof.KernelRun.lean ====
/-
  The kernel's run, read: the 1 × 1 result array of the call ends at the total (its one block, written back after the
  last grid point, covers its one index); the two host lines after the call turn it into the shared last step
  `Cert.Jsd.mean` of the total; the two argument arrays are unchanged.
-/
import proofs.«102382_j69707319214415_1_alg».proof.Proof.KernelTotal

noncomputable section

open Idealize.ShloMosaic Idealize.ShloMosaic.TcCoe Idealize.SL.Sem Idealize.ShloMosaic.ValueIdx
open Idealize.ShloMosaic.Pipeline (Dat)

namespace Cert.KernelIdeal.Total

open Cert.KernelIdeal Cert.KernelIdeal.Gen Cert.KernelIdeal.Body Cert.Jsd

variable (m : (ℓ : Loc nD τ sig) → Buf (Elt Ideal) ℓ) (ρ : Dev nD → PrngReg)

/-! ## The call's result array -/

/-- The 1 × 1 result array of the call, at the total. -/
abbrev outArr (c : Dev nD) : Buf (Elt Ideal) ((c : Thread nD τ).loc main_v0) := fun _ => total m c

/-- The output's block never moves: it is the array's one entry at every point. -/
theorem out_block : ∀ t : Fin cfg0.N, ∀ a : Fin 2, win0_2.index t a * win0_2.size a = 0 ∧ win0_2.xsize (grid0.coords t) a = 1 :=
  (by decide +kernel : ∀ t : Fin grid0.N, ∀ a : Fin 2, win0_2.index t a * win0_2.size a = 0 ∧ win0_2.xsize (grid0.coords t) a = 1)

/-- The one write-back, after the last point, writes the total. -/
theorem flushed_eq (c : Dev nD) (t : Fin cfg0.N) (hf : (cfg0.win 2).flush t = true) :
    (dats m 0 c).flushed 2 t = ((cfg0.win 2).blk t).view.read (Elt Ideal) (outArr m c) := by
  have h1 : t.val % 200 = 199 := (flush0_2 t).mp hf
  funext y
  show (cfg0.win 2).cut (grid0.coords t) ((dats m 0 c).after 2 t) y = _
  rw [after0_2, View.read_apply]
  exact out_total m c t h1 _

/-- The last grid point. -/
abbrev lastPt : Fin cfg0.N := ⟨199, by rw [show cfg0.N = 200 from N_0]; decide⟩

/-- So the result array ends holding the total. -/
theorem final_out (c : Dev nD) : (dats m 0 c).arrAt 2 cfg0.N = outArr m c :=
  (dats m 0 c).arrAt_eq_of_cover 2 (outArr m c) (flushed_eq m c) fun i =>
    ⟨lastPt, (flush0_2 lastPt).mpr rfl, by
      show i ∈ ((View.whole main_v0).slice (win0_2.rect lastPt)).set
      rw [View.set_slice_whole, Rect.mem_set_unit]
      intro a
      match a with
      | ⟨0, _⟩ =>
        show win0_2.index lastPt 0 * win0_2.size 0 ≤ (i 0 : Nat)
          ∧ (i 0 : Nat) < win0_2.index lastPt 0 * win0_2.size 0 + win0_2.xsize (grid0.coords lastPt) 0
        rw [(out_block lastPt 0).1, (out_block lastPt 0).2]
        have h : (i 0).val < 1 := (i 0).isLt
        omega
      | ⟨1, _⟩ =>
        show win0_2.index lastPt 1 * win0_2.size 1 ≤ (i 1 : Nat)
          ∧ (i 1 : Nat) < win0_2.index lastPt 1 * win0_2.size 1 + win0_2.xsize (grid0.coords lastPt) 1
        rw [(out_block lastPt 1).1, (out_block lastPt 1).2]
        have h : (i 1).val < 1 := (i 1).isLt
        omega⟩

/-! ## The host lines after the call -/

/-- The program's result: the shared last step of the total. -/
abbrev result (c : Dev nD) : Buf (Elt Ideal) ((c : Thread nD τ).loc main_v2) := mean (fun _ => total m c)

theorem tail_eq (c : Dev nD) :
    Pipeline.afterTail₀ cfgs (dats m) 0 (V0 m) [hostOps1] c main_v2 = result m c := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.devRef .tc main_v0)
      = outArr m c := (Pipeline.withArrays_arr spec0 launch0.win.arr_inj c _ _ 2).trans (final_out m c)
  rw [e]
  rfl

/-! ## The run -/

/-- Every weakly fair execution of the program terminates with its result at the shared last step of the total and its
    two arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Total

end
-- ==== Proof.RefTotal.lean ====
/-
  The reference as one number. Its last array before the reduction holds the summand `term (p i) (q i)` at every
  index `i` of the 4096 × 32000 array (the same words `0x3F000000` in the same places, the host's `exp` and `log` the
  kernel's at the ideal instance); the reduction over both axes is zero plus the sum over every index, which is the
  double sum over rows and columns; the final division is the shared last step `Cert.Jsd.mean`.
-/
import proofs.«102382_j69707319214415_1_alg».proof.Proof.JsdSum
import proofs.«102382_j69707319214415_1_alg».proof.Proof.Gen.ReferenceIdeal.Read

noncomputable section

open Idealize.ShloMosaic Idealize.ShloMosaic.TcCoe Idealize.SL.Sem Idealize.ShloMosaic.ValueIdx

namespace Cert.ReferenceIdeal.Total

open Cert.ReferenceIdeal Cert.ReferenceIdeal.Gen Cert.ReferenceIdeal.Read Cert.Jsd

/-- The reference's summand array at an index. -/
theorem summand_apply (p q : (⟨S4096x32000, .f32⟩ : BufTy).Contents (Elt Ideal)) (i : S4096x32000.Idx) :
    val_main_v16 (F := Ideal) p q i = term (p i) (q i) := by
  rw [val_main_v16_apply, val_main_v11_apply, val_main_v15_apply, val_main_v9_apply, val_main_v10_apply,
    val_main_v13_apply, val_main_v14_apply, val_main_v7_apply, val_main_v6_apply, val_main_v3_apply, val_main_v5_apply,
    val_main_v8_apply, val_main_v12_apply, val_main_v2_apply, val_main_v4_apply, val_main_v0_apply, val_main_v1_apply,
    val_main_cst_apply, val_main_cst_0_apply, val_main_cst_1_apply, val_main_cst_2_apply]
  rfl

/-- The reference's result: the shared last step of the sum of the summand over the whole array. -/
theorem result_eq (p q : (⟨S4096x32000, .f32⟩ : BufTy).Contents (Elt Ideal)) :
    val_main_v18 (F := Ideal) p q
      = mean (fun _ => ∑ i : Fin 4096, ∑ j : Fin 32000, term (p (ix2 i j)) (q (ix2 i j))) := by
  unfold val_main_v18 val_main_cst_4 mean
  refine congrArg (fun T => Host.divf (F := Ideal) T (constant (F := Ideal) S_ .f32 0x45800000#32)) ?_
  funext i
  rw [val_main_v17_apply, val_main_cst_3_apply, Ideal.ofBits_def, Ideal.ofBits_zero_f32, zero_add, sum_idx2]
  exact Finset.sum_congr rfl fun a _ => Finset.sum_congr rfl fun b _ => summand_apply p q _

end Cert.ReferenceIdeal.Total

end
-- ==== Proof.lean ====
/-
  The Jensen–Shannon reduction: a kernel that streams two 4096 × 32000 arrays of log-probabilities `p`, `q` through
  512 × 1280 blocks and accumulates, against the plain expression `sum(loss) / 4096`.

  Per entry both programs form the same summand
    `term x y = (½·eˣ)·(x − log(½·eˣ + ½·eʸ)) + (½·eʸ)·(y − log(½·eˣ + ½·eʸ))`
  from the same words (`½` is `0x3F000000` in all four places on either side), and at the ideal instance the kernel's
  `exp`, `log` and the host's are one function each. The kernel adds the summand over a block's lanes, then its
  sublanes, then adds the block's sum to a 1 × 1 accumulator that is zeroed at the first of the 8 × 25 grid points and
  copied out after the last; the reference adds the summand over the whole array at once. The blocks partition the
  array (4096 = 8·512, 32000 = 25·1280, block `t` at rows `512·(t / 25) + r`, columns `1280·(t % 25) + k`), and addition
  of extended reals is commutative and associative with `0` neutral, so the two totals are the same sum re-indexed
  (`Cert.Jsd.sum_blocks`); finiteness of the inputs is not used. Both programs then divide the total by the value of the
  same word `0x45800000`, one shared function (`Cert.Jsd.mean`).

  The kernel's and its idealization's frames are the generated ones; the reference's is its generated run with the
  result dropped; the ideal pass rewrote nothing, so `preserves` is `True`.
-/
import proofs.«102382_j69707319214415_1_alg».proof.Defs
import proofs.«102382_j69707319214415_1_alg».proof.Proof.Gen.Kernel
import proofs.«102382_j69707319214415_1_alg».proof.Proof.Gen.Kernel.Frame
import proofs.«102382_j69707319214415_1_alg».proof.Proof.Gen.KernelIdeal
import proofs.«102382_j69707319214415_1_alg».proof.Proof.Gen.KernelIdeal.Frame
import proofs.«102382_j69707319214415_1_alg».proof.Proof.Gen.ReferenceIdeal
import proofs.«102382_j69707319214415_1_alg».proof.Proof.Gen.ReferenceIdeal.Run
import proofs.«102382_j69707319214415_1_alg».proof.Proof.Gen.ReferenceIdeal.Read
import proofs.«102382_j69707319214415_1_alg».proof.Proof.Gen.Pre_finite_inputs
import proofs.«102382_j69707319214415_1_alg».proof.Proof.KernelRun
import proofs.«102382_j69707319214415_1_alg».proof.Proof.RefTotal
import Idealize.ShloMosaic.Adequacy
import Idealize.ShloMosaic.Init

noncomputable section

namespace Cert.Proof

open Idealize.ShloMosaic Idealize.ShloMosaic.TcCoe Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference has no kernel: its frame is its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- From arguments that agree, the kernel ends at the shared last step of its total (the running sum over the blocks,
    re-indexed) and the reference at the shared last step of its total over the whole array: the same term. -/
theorem algebraic :
    @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Total.result m c, Cert.KernelIdeal.Total.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.Total.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
